-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1200000 : Shape := ⟨1, ![1200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S1200000 32) (main_arg2 : IVec S1200000 32) (main_arg3 : FVec F S64x64 .f32) (main_arg4 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S1200000 : Shape := ⟨1, ![1200000]⟩
abbrev S64x64 : Shape := ⟨2, ![64, 64]⟩
abbrev S64 : Shape := ⟨1, ![64]⟩
abbrev S_ : Shape := ⟨0, ![]⟩
abbrev S1200000x1 : Shape := ⟨2, ![1200000, 1]⟩
abbrev S1200000x64 : Shape := ⟨2, ![1200000, 64]⟩
abbrev S100000 : Shape := ⟨1, ![100000]⟩
abbrev S100000x1 : Shape := ⟨2, ![100000, 1]⟩
abbrev S2000x64 : Shape := ⟨2, ![2000, 64]⟩
abbrev S1x64 : Shape := ⟨2, ![1, 64]⟩

abbrev nBuf : Space → Nat
  | .hbm => 31
  | .vmem => 6
  | .smem => 0
  | _ => 0

abbrev bufTy : (tb : Table) → Fin (tcTables nBuf tb) → BufTy
  | .hbm, ⟨0, _⟩ => ⟨S100000x64, .f32⟩
  | .hbm, ⟨1, _⟩ => ⟨S1200000, .i32⟩
  | .hbm, ⟨2, _⟩ => ⟨S1200000, .i32⟩
  | .hbm, ⟨3, _⟩ => ⟨S64x64, .f32⟩
  | .hbm, ⟨4, _⟩ => ⟨S64, .f32⟩
  | .hbm, ⟨5, _⟩ => ⟨S_, .i32⟩
  | .hbm, ⟨6, _⟩ => ⟨S1200000, .i32⟩
  | .hbm, ⟨7, _⟩ => ⟨S1200000, .i1⟩
  | .hbm, ⟨8, _⟩ => ⟨S_, .i32⟩
  | .hbm, ⟨9, _⟩ => ⟨S1200000, .i32⟩
  | .hbm, ⟨10, _⟩ => ⟨S1200000, .i32⟩
  | .hbm, ⟨11, _⟩ => ⟨S1200000, .i32⟩
  | .hbm, ⟨12, _⟩ => ⟨S1200000x1, .i32⟩
  | .hbm, ⟨13, _⟩ => ⟨S1200000x64, .f32⟩
  | .hbm, ⟨14, _⟩ => ⟨S_, .f32⟩
  | .hbm, ⟨15, _⟩ => ⟨S100000x64, .f32⟩
  | .hbm, ⟨16, _⟩ => ⟨S1200000x1, .i32⟩
  | .hbm, ⟨17, _⟩ => ⟨S100000x64, .f32⟩
  | .hbm, ⟨18, _⟩ => ⟨S_, .f32⟩
  | .hbm, ⟨19, _⟩ => ⟨S1200000, .f32⟩
  | .hbm, ⟨20, _⟩ => ⟨S_, .f32⟩
  | .hbm, ⟨21, _⟩ => ⟨S100000, .f32⟩
  | .hbm, ⟨22, _⟩ => ⟨S1200000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x64, .f32⟩
  | .hbm, ⟨29, _⟩ => ⟨S100000x64, .f32⟩
  | .hbm, ⟨30, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S64, .f32⟩
  | .local _ .vmem, ⟨4, _⟩ => ⟨S2000x64, .f32⟩
  | .local _ .vmem, ⟨5, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S2000x64_S64x64_S2000x64_1_1_0_0_n_n_wf : DotDims.WF S2000x64 S64x64 S2000x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S2000x64_S64x64_S2000x64_1_1_0_0_n_n : DotDims S2000x64 S64x64 S2000x64 where
  lhsContracting := [1]
  rhsContracting := [1]
  lhsNonContracting := [0]
  rhsNonContracting := [0]
  lhsBatch := []
  rhsBatch := []
  wf := dot_S2000x64_S64x64_S2000x64_1_1_0_0_n_n_wf

abbrev win0_0 : Pipeline.Window sig grid0 :=
  Pipeline.Window.ofSpec (Memref.whole main_v18) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S1200000 : Shape := ⟨1, ![1200000]⟩
abbrev S64x64 : Shape := ⟨2, ![64, 64]⟩
abbrev S64 : Shape := ⟨1, ![64]⟩
abbrev S_ : Shape := ⟨0, ![]⟩
abbrev S1200000x1 : Shape := ⟨2, ![1200000, 1]⟩
abbrev S1200000x64 : Shape := ⟨2, ![1200000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 37
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1200000, .i32⟩
  | .hbm, ⟨2, _⟩ => ⟨S1200000, .i32⟩
  | .hbm, ⟨3, _⟩ => ⟨S64x64, .f32⟩
  | .hbm, ⟨4, _⟩ => ⟨S64, .f32⟩
  | .hbm, ⟨5, _⟩ => ⟨S_, .i32⟩
  | .hbm, ⟨6, _⟩ => ⟨S1200000, .i32⟩
  | .hbm, ⟨7, _⟩ => ⟨S1200000, .i1⟩
  | .hbm, ⟨8, _⟩ => ⟨S_, .i32⟩
  | .hbm, ⟨9, _⟩ => ⟨S1200000, .i32⟩
  | .hbm, ⟨10, _⟩ => ⟨S1200000, .i32⟩
  | .hbm, ⟨11, _⟩ => ⟨S1200000, .i32⟩
  | .hbm, ⟨12, _⟩ => ⟨S1200000x1, .i32⟩
  | .hbm, ⟨13, _⟩ => ⟨S1200000x64, .f32⟩
  | .hbm, ⟨14, _⟩ => ⟨S_, .f32⟩
  | .hbm, ⟨15, _⟩ => ⟨S100000x64, .f32⟩
  | .hbm, ⟨16, _⟩ => ⟨S1200000x1, .i32⟩
  | .hbm, ⟨17, _⟩ => ⟨S100000x64, .f32⟩
  | .hbm, ⟨18, _⟩ => ⟨S_, .f32⟩
  | .hbm, ⟨19, _⟩ => ⟨S1200000, .f32⟩
  | .hbm, ⟨20, _⟩ => ⟨S_, .f32⟩
  | .hbm, ⟨21, _⟩ => ⟨S100000, .f32⟩
  | .hbm, ⟨22, _⟩ => ⟨S1200000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x64, .f32⟩
  | .hbm, ⟨29, _⟩ => ⟨S100000x64, .f32⟩
  | .hbm, ⟨30, _⟩ => ⟨S100000x64, .f32⟩
  | .hbm, ⟨31, _⟩ => ⟨S1x64, .f32⟩
  | .hbm, ⟨32, _⟩ => ⟨S100000x64, .f32⟩
  | .hbm, ⟨33, _⟩ => ⟨S100000x64, .f32⟩
  | .hbm, ⟨34, _⟩ => ⟨S_, .f32⟩
  | .hbm, ⟨35, _⟩ => ⟨S100000x64, .f32⟩
  | .hbm, ⟨36, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S100000x64_S64x64_S100000x64_1_1_0_0_n_n_wf : DotDims.WF S100000x64 S64x64 S100000x64 [1] [1] [0] [0] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x64_S64x64_S100000x64_1_1_0_0_n_n : DotDims S100000x64 S64x64 S100000x64 where
  lhsContracting := [1]
  rhsContracting := [1]
  lhsNonContracting := [0]
  rhsNonContracting := [0]
  lhsBatch := []
  rhsBatch := []
  wf := dot_S100000x64_S64x64_S100000x64_1_1_0_0_n_n_wf

class Facts : Prop extends Facts₀ where

variable [Facts]
-- ==== Proof.HeadSpec.lean ====
/-
  What one layer of the graph network's head computes, as one function of its three operands.

  For a matrix `h` of node features (one row per node, 64 columns), a weight matrix `W` (64 output
  features by 64 input features) and a bias `b` (64 entries), the head's value at node `p` and output
  feature `q` is

      max ( (Σ_k  h[p, k] · W[q, k])  +  b[q] ,  0 )

  on the extended reals: the row of `h` against the ROW `q` of `W` (so `h · Wᵀ`), the bias added, and
  the rectifier. The number of rows is a parameter: the same function is read on the whole array of
  100000 nodes and on one tile of 2000 of them, and a tile of the whole array's value is the value of
  the tile, because row `p` of the result depends on row `p` of `h` only (`head_congr`).
-/
import Idealize.ShloMosaic.PureOps.Ideal
import Idealize.ShloMosaic.Lib.ValueIdx

noncomputable section

open scoped BigOperators

namespace Cert.HeadSpec

open Idealize.ShloMosaic Idealize.ShloMosaic.ValueIdx

/-- `relu (h · Wᵀ + b)` index by index, for `n` rows. -/
def head {n : Nat} (h : (⟨2, ![n, 64]⟩ : Shape).Idx → EReal) (W : (⟨2, ![64, 64]⟩ : Shape).Idx → EReal)
    (b : (⟨1, ![64]⟩ : Shape).Idx → EReal) : (⟨2, ![n, 64]⟩ : Shape).Idx → EReal :=
  fun i => max ((∑ k : Fin 64, h (ix2 (n0 := n) (n1 := 64) (i 0) k) * W (ix2 (n0 := 64) (n1 := 64) (i 1) k))
    + b (ix1 (n := 64) (i 1))) 0

/-- The head at node `p`, feature `q`. -/
theorem head_apply {n : Nat} (h : (⟨2, ![n, 64]⟩ : Shape).Idx → EReal) (W : (⟨2, ![64, 64]⟩ : Shape).Idx → EReal)
    (b : (⟨1, ![64]⟩ : Shape).Idx → EReal) (p : Fin n) (q : Fin 64) :
    head h W b (ix2 p q) = max ((∑ k : Fin 64, h (ix2 p k) * W (ix2 q k)) + b (ix1 q)) 0 := rfl

/-- The head at node `p'`, feature `q` of one triple of operands is the head at node `p`, feature `q` of another
    as soon as the entries it reads agree: row `p'` of the one feature matrix with row `p` of the other, row `q` of
    the two weight matrices, entry `q` of the two biases. An output row reads ONE row of features: this is what lets
    a tile of rows be computed by itself. -/
theorem head_congr {n n' : Nat} (h : (⟨2, ![n, 64]⟩ : Shape).Idx → EReal) (h' : (⟨2, ![n', 64]⟩ : Shape).Idx → EReal)
    (W W' : (⟨2, ![64, 64]⟩ : Shape).Idx → EReal) (b b' : (⟨1, ![64]⟩ : Shape).Idx → EReal) (p : Fin n) (p' : Fin n') (q : Fin 64)
    (hrow : ∀ k : Fin 64, h' (ix2 p' k) = h (ix2 p k)) (hW : ∀ k : Fin 64, W' (ix2 q k) = W (ix2 q k))
    (hb : b' (ix1 q) = b (ix1 q)) :
    head h' W' b' (ix2 p' q) = head h W b (ix2 p q) := by
  rw [head_apply, head_apply, hb]
  exact congrArg (fun s => max (s + b (ix1 q)) 0) (Finset.sum_congr rfl fun k _ => by rw [hrow k, hW k])

end Cert.HeadSpec

end
-- ==== Proof.RefHead.lean ====
/-
  The reference computes the head of its mean-aggregated features.

  Read one operation at a time, the reference's result at node `p`, feature `q` is the maximum with zero
  of: the `dot_general` of the aggregated features `h` with `W` (contracting the second axis of both, so
  Σ_k h[p, k] · W[q, k]) plus the bias broadcast first to one row and then over all rows (so b[q]).
  That is the head of `h`, `W`, `b`. The aggregated features `h` (gather, two scatter-adds, the division
  by the clamped degree) enter only as an array: nothing here looks inside them.
-/
import proofs.«178942_j35579509080730_1_alg».proof.Proof.Gen.ReferenceIdeal.Read
import proofs.«178942_j35579509080730_1_alg».proof.Proof.HeadSpec
import Idealize.ShloMosaic.PureOps.Ideal.Laws

noncomputable section

open scoped BigOperators

namespace Cert.RefHead

open Cert.ReferenceIdeal Cert.ReferenceIdeal.Read Idealize.ShloMosaic Idealize.ShloMosaic.ValueIdx Cert.HeadSpec

/-- The reference's result is the head of the aggregated features (`val_main_v18`), the weights and the bias. -/
theorem result_is_head (x0 : (⟨S100000x64, .f32⟩ : BufTy).Contents (Elt Ideal)) (x1 x2 : (⟨S1200000, .i32⟩ : BufTy).Contents (Elt Ideal))
    (x3 : (⟨S64x64, .f32⟩ : BufTy).Contents (Elt Ideal)) (x4 : (⟨S64, .f32⟩ : BufTy).Contents (Elt Ideal)) :
    val_main_v23 (F := Ideal) x0 x1 x2 x3 x4 = head (val_main_v18 (F := Ideal) x0 x1 x2) x3 x4 := by
  funext i
  obtain ⟨p, q, rfl⟩ : ∃ (p : Fin 100000) (q : Fin 64), i = ix2 p q := ⟨i 0, i 1, eq_ix2 i⟩
  rw [val_main_v23_apply, val_main_v22_apply, val_main_v19_apply, val_main_v21_apply, val_main_v20_apply,
    val_main_call0_v0_apply, val_main_call0_cst_apply, head_apply]
  generalize val_main_v18 (F := Ideal) x0 x1 x2 = y
  -- the operand indices of the contraction, and of the two bias broadcasts, by coordinates
  have el : ∀ k : Fin 64, lidx_main_v19 (ix2 p q) k = ix2 p k := fun k => funext fun a => by
    match a with
    | ⟨0, _⟩ => rfl
    | ⟨1, _⟩ => rfl
  have er : ∀ k : Fin 64, ridx_main_v19 (ix2 p q) k = ix2 q k := fun k => funext fun a => by
    match a with
    | ⟨0, _⟩ => rfl
    | ⟨1, _⟩ => rfl
  have eb : idx_main_v20 (idx_main_v21 (ix2 p q)) = ix1 q := funext fun a => by
    match a with
    | ⟨0, _⟩ => rfl
  simp only [el, er, eb]
  show max (_ + _) (Ideal.ofBits .f32 0x00000000#32) = _
  rw [Ideal.ofBits_zero_f32]

end Cert.RefHead

end
-- ==== Proof.KerHead.lean ====
/-
  The kernel body's arithmetic, on one tile of 2000 nodes, is the head of the tile.

  The body loads a tile `x` of aggregated features (2000 rows), the whole weight matrix `w` and the whole
  bias `v`, and stores  max ( matmul (x, w) + v broadcast over the rows , 0 ).  At the ideal values the two
  narrowings to bf16 are the identity, the matrix unit's product into a zero accumulator, contracting the
  second axis of both operands, is  Σ_k x[p, k] · w[q, k]  (the zero accumulator contributes 0 + ·), the
  bias cast to one row and broadcast over the rows reads v[q] at every row, and the maximum with the splat
  zero is the rectifier: entry (p, q) of the stored value is the head of (x, w, v) at (p, q).
-/
import proofs.«178942_j35579509080730_1_alg».proof.Proof.Gen.KernelIdeal.Skeleton
import proofs.«178942_j35579509080730_1_alg».proof.Proof.HeadSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KerHead

open Cert.KernelIdeal Cert.KernelIdeal.Gen Idealize.ShloMosaic Idealize.ShloMosaic.ValueIdx Cert.HeadSpec

/-! ## The matrix product's operand indices, axis by axis -/

/-- The left operand is read at the output's row … -/
theorem lhs_axis0 (j : S2000x64.Idx) (q : dot_S2000x64_S64x64_S2000x64_1_1_0_0_n_n.contr.Idx) :
    (dot_S2000x64_S64x64_S2000x64_1_1_0_0_n_n.lhsIdx j q 0).val = (j 0).val := by
  unfold DotDims.lhsIdx
  rw [dif_neg (show ¬(0 : Fin S2000x64.rank) ∈ dot_S2000x64_S64x64_S2000x64_1_1_0_0_n_n.lhsBatch by decide), dif_pos (show (0 : Fin S2000x64.rank) ∈ dot_S2000x64_S64x64_S2000x64_1_1_0_0_n_n.lhsNonContracting by decide)]
  rfl
/-- … and at the contraction index on its second axis. -/
theorem lhs_axis1 (j : S2000x64.Idx) (q : dot_S2000x64_S64x64_S2000x64_1_1_0_0_n_n.contr.Idx) :
    (dot_S2000x64_S64x64_S2000x64_1_1_0_0_n_n.lhsIdx j q 1).val = (q ⟨0, by decide⟩).val :=
  dot_S2000x64_S64x64_S2000x64_1_1_0_0_n_n.lhsIdx_val_of_single rfl j q
/-- The right operand is read at the output's COLUMN on its first axis (the product is with the transpose) … -/
theorem rhs_axis0 (j : S2000x64.Idx) (q : dot_S2000x64_S64x64_S2000x64_1_1_0_0_n_n.contr.Idx) :
    (dot_S2000x64_S64x64_S2000x64_1_1_0_0_n_n.rhsIdx j q 0).val = (j 1).val := by
  unfold DotDims.rhsIdx
  rw [dif_neg (show ¬(0 : Fin S64x64.rank) ∈ dot_S2000x64_S64x64_S2000x64_1_1_0_0_n_n.rhsBatch by decide), dif_pos (show (0 : Fin S64x64.rank) ∈ dot_S2000x64_S64x64_S2000x64_1_1_0_0_n_n.rhsNonContracting by decide)]
  rfl
/-- … and at the contraction index on its second axis. -/
theorem rhs_axis1 (j : S2000x64.Idx) (q : dot_S2000x64_S64x64_S2000x64_1_1_0_0_n_n.contr.Idx) :
    (dot_S2000x64_S64x64_S2000x64_1_1_0_0_n_n.rhsIdx j q 1).val = (q ⟨0, by decide⟩).val :=
  dot_S2000x64_S64x64_S2000x64_1_1_0_0_n_n.rhsIdx_val_of_single rfl j q

/-- The matrix unit's product into the zero accumulator, at row `p` and column `q`: the row of the left operand
    against the row `q` of the right one. -/
theorem matmul_at (l : FVec Ideal S2000x64 .bf16) (r : FVec Ideal S64x64 .bf16) (p : Fin 2000) (q : Fin 64) :
    matmul dot_S2000x64_S64x64_S2000x64_1_1_0_0_n_n none l r (constant S2000x64 .f32 0x00000000#32) (ix2 p q)
      = ∑ k : Fin 64, l (ix2 p k) * r (ix2 q k) := by
  simp only [matmul]
  rw [Ideal.matmul_constant_zero_apply, ← Equiv.sum_comp (contrEquiv1 dot_S2000x64_S64x64_S2000x64_1_1_0_0_n_n 64 rfl rfl).symm]
  refine Finset.sum_congr rfl fun k _ => ?_
  have hk := contrEquiv1_symm_val dot_S2000x64_S64x64_S2000x64_1_1_0_0_n_n 64 rfl rfl k
  have el : dot_S2000x64_S64x64_S2000x64_1_1_0_0_n_n.lhsIdx (ix2 p q) ((contrEquiv1 dot_S2000x64_S64x64_S2000x64_1_1_0_0_n_n 64 rfl rfl).symm k) = ix2 p k := funext fun a => Fin.ext (by
    match a with
    | ⟨0, _⟩ => exact lhs_axis0 _ _
    | ⟨1, _⟩ => exact (lhs_axis1 _ _).trans hk)
  have er : dot_S2000x64_S64x64_S2000x64_1_1_0_0_n_n.rhsIdx (ix2 p q) ((contrEquiv1 dot_S2000x64_S64x64_S2000x64_1_1_0_0_n_n 64 rfl rfl).symm k) = ix2 q k := funext fun a => Fin.ext (by
    match a with
    | ⟨0, _⟩ => exact rhs_axis0 _ _
    | ⟨1, _⟩ => exact (rhs_axis1 _ _).trans hk)
  rw [el, er]

/-! ## The stored value -/

/-- What the body stores, from the three blocks it loads, is their head. -/
theorem payload_is_head (x : Vec Ideal S2000x64 .f32) (w : Vec Ideal S64x64 .f32) (v : Vec Ideal S64 .f32) :
    k0_pay1 (F := Ideal) x w v = head x w v := by
  funext j
  obtain ⟨p, q, rfl⟩ : ∃ (p : Fin 2000) (q : Fin 64), j = ix2 p q := ⟨j 0, j 1, eq_ix2 j⟩
  unfold k0_pay1
  show (max ((matmul (F := Ideal) dot_S2000x64_S64x64_S2000x64_1_1_0_0_n_n none
        (truncf (F := Ideal) .bf16 (shapeCast S2000x64 x shapeCasts_S2000x64_S2000x64) bitsLt_bf16_f32)
        (truncf (F := Ideal) .bf16 w bitsLt_bf16_f32) (constant (F := Ideal) S2000x64 .f32 0x00000000#32) (ix2 p q) : EReal)
      + (broadcastTo S2000x64 (shapeCast S1x64 v shapeCasts_S64_S1x64) broadcasts_S1x64_S2000x64 (ix2 p q) : EReal))
      (Ideal.ofBits .f32 0x00000000#32 : EReal) : EReal) = _
  rw [matmul_at, broadcastTo_1b_ab_apply, shapeCast_a_1a_apply, Ideal.ofBits_zero_f32, head_apply, shapeCast_self]
  rfl

end Cert.KerHead

end
-- ==== Proof.TileReads.lean ====
/-
  One tile of the kernel's grid, for ARBITRARY arrays: reading the three staged blocks, and the tile's head
  as a block of the whole array's head.

  The grid has 50 points. At point `t` the feature window's block index is `(t, 0)` with blocks of 2000 rows by
  64 columns, so entry `(p, k)` of the staged tile is entry `(2000·t + p, k)` of the array; the weight and
  bias windows' block index is 0 at every point and their block is the whole array, so the staged blocks ARE
  the arrays; the result window's block index is `(t, 0)` again. Row `p` of the head of a tile reads row `p`
  of the tile only, so the head of the staged tile is block `t` of the head of the whole feature array. And
  row `r` of the result lies in the block of point `r / 2000`: the 50 blocks tile the 100000 rows.

  Nothing here mentions where the arrays come from: they are variables, so that no step ever looks inside
  the host computation that produced the features.
-/
import proofs.«178942_j35579509080730_1_alg».proof.Proof.Gen.KernelIdeal.Launch
import proofs.«178942_j35579509080730_1_alg».proof.Proof.Gen.KernelIdeal.Points
import proofs.«178942_j35579509080730_1_alg».proof.Proof.HeadSpec
import Idealize.ShloMosaic.Lib.Pipeline.Value

set_option maxRecDepth 16384

noncomputable section

namespace Cert.TileReads

open Cert.KernelIdeal Cert.KernelIdeal.Gen Idealize.ShloMosaic Idealize.ShloMosaic.TcCoe Idealize.SL.Sem
open Idealize.ShloMosaic.ValueIdx Cert.HeadSpec

/-- The printed index maps over the 50 points: the feature window and the result window sit at block `(t, 0)`, the
    weight and bias windows at block 0. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

theorem point_lt (t : Fin cfg0.N) : t.val < 50 := t.isLt.trans_eq N_0

/-- The array row that row `p` of tile `t` is. -/
abbrev rowOf (t : Fin cfg0.N) (p : Fin 2000) : Fin 100000 :=
  ⟨t.val * 2000 + p.val, by have := point_lt t; have := p.isLt; omega⟩

variable (A : S100000x64.Idx → EReal) (Wt : S64x64.Idx → EReal) (Bs : S64.Idx → EReal)

/-! ## The staged blocks, read at an index -/

/-- Entry `(p, k)` of the feature tile at point `t` is entry `(2000·t + p, k)` of the array. -/
theorem feat_read (t : Fin cfg0.N) (p : Fin 2000) (k : Fin 64) :
    ((cfg0.win 0).blk t).view.read (Elt Ideal) A (ix2 p k) = A (ix2 (rowOf t p) k) := by
  show A (((cfg0.win 0).blk t).view.emb (ix2 p k)) = A _
  refine congrArg A (funext fun a => Fin.ext ?_)
  obtain ⟨e0, e1, -, -, -, -, -⟩ := index_facts t
  match a with
  | ⟨0, _⟩ => show win0_0.index t (0 : Fin 2) * 2000 + 1 * p.val = t.val * 2000 + p.val; omega
  | ⟨1, _⟩ => show win0_0.index t (1 : Fin 2) * 64 + 1 * k.val = k.val; omega

/-- The weight window's block is the whole matrix at every point. -/
theorem weight_read (t : Fin cfg0.N) (q k : Fin 64) :
    ((cfg0.win 1).blk t).view.read (Elt Ideal) Wt (ix2 q k) = Wt (ix2 q k) := by
  show Wt (((cfg0.win 1).blk t).view.emb (ix2 q k)) = Wt _
  refine congrArg Wt (funext fun a => Fin.ext ?_)
  obtain ⟨-, -, e2, e3, -, -, -⟩ := index_facts t
  match a with
  | ⟨0, _⟩ => show win0_1.index t (0 : Fin 2) * 64 + 1 * q.val = q.val; omega
  | ⟨1, _⟩ => show win0_1.index t (1 : Fin 2) * 64 + 1 * k.val = k.val; omega

/-- The bias window's block is the whole bias at every point. -/
theorem bias_read (t : Fin cfg0.N) (q : Fin 64) :
    ((cfg0.win 2).blk t).view.read (Elt Ideal) Bs (ix1 q) = Bs (ix1 q) := by
  show Bs (((cfg0.win 2).blk t).view.emb (ix1 q)) = Bs _
  refine congrArg Bs (funext fun a => Fin.ext ?_)
  obtain ⟨-, -, -, -, e4, -, -⟩ := index_facts t
  match a with
  | ⟨0, _⟩ => show win0_2.index t (0 : Fin 1) * 64 + 1 * q.val = q.val; omega

/-- Entry `(p, q)` of the result window's block at point `t` sits at `(2000·t + p, q)` of the result array. -/
theorem out_emb (t : Fin cfg0.N) (p : Fin 2000) (q : Fin 64) :
    ((cfg0.win 3).blk t).view.emb (ix2 p q) = ix2 (rowOf t p) q := by
  funext a; apply Fin.ext
  obtain ⟨-, -, -, -, -, e5, e6⟩ := index_facts t
  match a with
  | ⟨0, _⟩ => show win0_3.index t (0 : Fin 2) * 2000 + 1 * p.val = t.val * 2000 + p.val; omega
  | ⟨1, _⟩ => show win0_3.index t (1 : Fin 2) * 64 + 1 * q.val = q.val; omega

/-! ## The head of a tile is a block of the head of the array -/

/-- The head of the three blocks staged at point `t`, read through the result window's block, is block `t` of the head of
    the three arrays. -/
theorem tile_head (t : Fin cfg0.N) :
    (cfg0.win 3).cut (grid0.coords t)
        (head (((cfg0.win 0).blk t).view.read (Elt Ideal) A) (((cfg0.win 1).blk t).view.read (Elt Ideal) Wt)
          (((cfg0.win 2).blk t).view.read (Elt Ideal) Bs))
      = ((cfg0.win 3).blk t).view.read (Elt Ideal) (head A Wt Bs) := by
  funext j
  obtain ⟨p, q, rfl⟩ : ∃ (p : Fin 2000) (q : Fin 64), j = ix2 p q := ⟨j 0, j 1, eq_ix2 j⟩
  show head (n := 2000) (((cfg0.win 0).blk t).view.read (Elt Ideal) A) (((cfg0.win 1).blk t).view.read (Elt Ideal) Wt)
        (((cfg0.win 2).blk t).view.read (Elt Ideal) Bs) (ix2 p q)
      = head (n := 100000) A Wt Bs (((cfg0.win 3).blk t).view.emb (ix2 p q))
  rw [out_emb]
  exact head_congr (n := 100000) (n' := 2000) A (((cfg0.win 0).blk t).view.read (Elt Ideal) A)
    Wt (((cfg0.win 1).blk t).view.read (Elt Ideal) Wt) Bs (((cfg0.win 2).blk t).view.read (Elt Ideal) Bs)
    (rowOf t p) p q (fun k => feat_read A t p k) (fun k => weight_read Wt t q k) (bias_read Bs t q)

/-! ## The blocks tile the array -/

/-- An index of the result array is in point `t`'s block iff each coordinate is in the block's range on its axis. -/
theorem mem_block (t : Fin cfg0.N) (i : S100000x64.Idx) :
    i ∈ ((cfg0.win 3).blk t).view.set ↔ ∀ a : Fin 2, win0_3.index t a * S2000x64.size a ≤ (i a).val
      ∧ (i a).val < win0_3.index t a * S2000x64.size a + S2000x64.size a := by
  show i ∈ ((View.whole main_v19).slice (win0_3.rect t)).set ↔ _
  rw [View.set_slice_whole, Rect.mem_set_unit]
  exact Iff.rfl

/-- Row `r` of the result lies in the block of point `r / 2000`, and every point writes its block back. -/
theorem tiles_cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : (i 0).val / 2000 < cfg0.N := by rw [show cfg0.N = 50 from N_0]; omega
  refine ⟨⟨(i 0).val / 2000, hN⟩, flush0_3 _, ?_⟩
  rw [mem_block]
  obtain ⟨-, -, -, -, -, e5, e6⟩ := index_facts ⟨(i 0).val / 2000, hN⟩
  have e5' : win0_3.index ⟨(i 0).val / 2000, hN⟩ (0 : Fin 2) = (i 0).val / 2000 := e5
  intro a
  match a with
  | ⟨0, _⟩ =>
    show win0_3.index ⟨(i 0).val / 2000, hN⟩ (0 : Fin 2) * 2000 ≤ (i 0).val
      ∧ (i 0).val < win0_3.index ⟨(i 0).val / 2000, hN⟩ (0 : Fin 2) * 2000 + 2000
    omega
  | ⟨1, _⟩ =>
    show win0_3.index ⟨(i 0).val / 2000, hN⟩ (1 : Fin 2) * 64 ≤ (i 1).val
      ∧ (i 1).val < win0_3.index ⟨(i 0).val / 2000, hN⟩ (1 : Fin 2) * 64 + 64
    omega

end Cert.TileReads

end
-- ==== Proof.KerBlocks.lean ====
/-
  From tiles to the whole array: after the kernel has run, its result array is the head of the arrays the
  region found.

  Point `t` of the grid writes back the stored value of the body on the three blocks staged there, which is
  their head (`Cert.KerHead.payload_is_head`); the staged blocks are the windows' blocks of the arrays the region
  finds, so by `Cert.TileReads.tile_head` what is written back is block `t` of the head of those arrays; the blocks
  tile the result array (`Cert.TileReads.tiles_cover`), so it ends holding that head everywhere. The weights and the
  bias the region finds are the launched ones; the features are what the host operations before the region
  computed, carried here as one array and never opened.
-/
import proofs.«178942_j35579509080730_1_alg».proof.Proof.Gen.KernelIdeal.Value
import proofs.«178942_j35579509080730_1_alg».proof.Proof.KerHead
import proofs.«178942_j35579509080730_1_alg».proof.Proof.TileReads

set_option maxRecDepth 16384

noncomputable section

namespace Cert.KerBlocks

open Cert.KernelIdeal Cert.KernelIdeal.Gen Idealize.ShloMosaic Idealize.ShloMosaic.TcCoe Idealize.SL.Sem
open Idealize.ShloMosaic.ValueIdx Cert.HeadSpec
open Idealize.ShloMosaic.Pipeline (Dat)

variable (m : (ℓ : Loc nD τ sig) → Buf (Elt Ideal) ℓ) (ρ : Dev nD → PrngReg)

/-! ## The arrays the region finds, at their literal types -/

/-- The aggregated features, as the region finds them: what the host operations before it computed. -/
abbrev feats (c : Dev nD) : S100000x64.Idx → EReal := V m c main_v18
/-- The weights as the region finds them. -/
abbrev weights (c : Dev nD) : S64x64.Idx → EReal := V m c main_arg3
/-- The bias as the region finds it. -/
abbrev bias (c : Dev nD) : S64.Idx → EReal := V m c main_arg4

theorem off2 : (![0, 0] : Fin 2 → Nat) = fun _ => 0 := funext fun a => by fin_cases a <;> rfl
theorem off1 : (![0] : Fin 1 → Nat) = fun _ => 0 := funext fun a => by fin_cases a <;> rfl

/-- The three staged blocks are the windows' blocks of those arrays. -/
theorem feat_block (c : Dev nD) (t : Fin cfg0.N) :
    iblk m c 0 t = ((cfg0.win 0).blk t).view.read (Elt Ideal) (feats m c) := rfl
theorem weight_block (c : Dev nD) (t : Fin cfg0.N) :
    iblk m c 1 t = ((cfg0.win 1).blk t).view.read (Elt Ideal) (weights m c) := rfl
theorem bias_block (c : Dev nD) (t : Fin cfg0.N) :
    iblk m c 2 t = ((cfg0.win 2).blk t).view.read (Elt Ideal) (bias m c) := rfl

/-! ## What a point writes back -/

/-- WHAT POINT `t` WRITES BACK is block `t` of the head of the arrays the region found. -/
theorem flushed_is_head (c : Dev nD) (t : Fin cfg0.N) :
    (dats m 0 c).flushed 3 t
      = ((cfg0.win 3).blk t).view.read (Elt Ideal) (head (feats m c) (weights m c) (bias m c)) := by
  rw [Cert.KernelIdeal.Value.flushed3]
  unfold out0_3
  rw [View.canon_unit_zero off2]
  simp only [View.ld_unit_zero (S := S2000x64) off2, View.ld_unit_zero (S := S64x64) off2, View.ld_unit_zero (S := S64) off1]
  rw [Cert.KerHead.payload_is_head, feat_block, weight_block, bias_block]
  exact Cert.TileReads.tile_head (feats m c) (weights m c) (bias m c) t

/-! ## The array after the run, and the run -/

/-- THE RESULT ARRAY after the run is the head of the arrays the region found. -/
theorem final_is_head (c : Dev nD) :
    (dats m 0 c).arrAt 3 cfg0.N = head (feats m c) (weights m c) (bias m c) :=
  (dats m 0 c).arrAt_eq_of_cover 3 (head (feats m c) (weights m c) (bias m c))
    (fun t _ => flushed_is_head m c t) Cert.TileReads.tiles_cover

/-- The weights and the bias the region finds are the launched ones. -/
theorem head_launched (c : Dev nD) :
    head (feats m c) (weights m c) (bias m c)
      = head (feats m c) (m ((c : Thread nD τ).loc main_arg3)) (m ((c : Thread nD τ).loc main_arg4)) := by
  show head (feats m c) (V m c main_arg3) (V m c main_arg4) = _
  rw [V_main_arg3, V_main_arg4]

/-- The kernel's run, read: the result is the head of the aggregated features the host operations left, of the
    weights and of the bias as launched; the arguments are unchanged. -/
theorem run_head : θ_run defs (onTc (τ := τ) (main (F := Ideal))) ⟨m, fun _ => 0, ρ⟩ fun r => ∀ c : Dev nD,
      r.2.mem ((c : Thread nD τ).loc main_v19)
        = head (feats m c) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final_is_head m c).trans (head_launched m c)), (h c).2⟩)
    (Cert.KernelIdeal.Value.run_blocks m ρ)

end Cert.KerBlocks

end
-- ==== Proof.SamePrefix.lean ====
/-
  The aggregated features are the same function of the arguments in both programs.

  Before its region the kernel's program runs, on the host, exactly the operations the reference runs before
  its matrix product: negative source indices wrapped by the number of nodes, the rows of the feature
  matrix gathered edge by edge, the gathered rows scatter-added at the destination indices into a zero
  array, a column of ones scatter-added the same way for the in-degrees, the degrees clamped below by one
  and broadcast along the rows, and the quotient of the two. So the array the region finds in the
  quotient's buffer is the reference's quotient stage of the SAME three arguments. The operations are never
  opened: the equation is between two spellings of one composition.
-/
import proofs.«178942_j35579509080730_1_alg».proof.Proof.Gen.KernelIdeal.Frame
import proofs.«178942_j35579509080730_1_alg».proof.Proof.Gen.ReferenceIdeal.Read
import Idealize.ShloMosaic.Lib.StableHlo.Run

noncomputable section

namespace Cert.SamePrefix

open Idealize.ShloMosaic Idealize.ShloMosaic.TcCoe Idealize.SL.Sem

variable (m : (ℓ : Loc Cert.KernelIdeal.nD Cert.KernelIdeal.τ Cert.KernelIdeal.sig) → Buf (Elt Ideal) ℓ)

set_option maxHeartbeats 2000000 in
/-- What the kernel's region finds as its first operand is the reference's mean-aggregation stage of the feature
    matrix and the two index arrays as launched. -/
theorem feats_eq (c : Dev Cert.KernelIdeal.nD) :
    (Cert.KernelIdeal.Gen.V m c Cert.KernelIdeal.main_v18 : Cert.KernelIdeal.S100000x64.Idx → EReal)
      = Cert.ReferenceIdeal.Read.val_main_v18 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  dsimp only [Cert.KernelIdeal.Gen.V, Cert.KernelIdeal.Gen.hostOps0]
  after_results_simp
  rfl

end Cert.SamePrefix

end
-- ==== Proof.lean ====
/-
  A graph-network layer: mean aggregation over incoming edges, then a linear map, a bias and the rectifier.

  Both programs first aggregate on the host, by the same operations: for every node, the sum of the feature
  rows of its in-neighbours divided by its in-degree clamped below by one. Call the result `h` (100000 nodes
  by 64 features). The reference then computes  relu (h · Wᵀ + b)  as one product over the whole array. The
  kernel computes it tile by tile: 50 tiles of 2000 nodes, each tile's rows against the whole of `W` on the
  matrix unit (operands narrowed to bf16, which at the ideal values changes nothing), the bias added, the
  rectifier applied, the tile written back to its rows of the result.

  The two agree entry by entry on the extended reals with no condition on the inputs: entry (p, q) of either
  is  max ( Σ_k h[p, k] · W[q, k] + b[q] , 0 )  (`Cert.HeadSpec.head`). For the reference this is its operations
  read at an index (`Cert.RefHead.result_is_head`); for the kernel it is the stored value read at an index
  (`Cert.KerHead.payload_is_head`), the fact that row `p` of a tile's result reads row `p` of the tile only,
  and the tiles covering the rows (`Cert.KerBlocks.run_head`); and `h` is one function of the arguments on both
  sides (`Cert.SamePrefix.feats_eq`). The only arithmetic law used is  0 + x = x  for the matrix unit's zero
  accumulator, which holds at the infinities too, so finiteness of the inputs is never needed.

  The three frames are the generated ones (the reference's is its run with the result dropped), and the
  kernel's idealization rewrote no operation, so there is nothing to preserve.
-/
import proofs.«178942_j35579509080730_1_alg».proof.Defs
import proofs.«178942_j35579509080730_1_alg».proof.Proof.Gen.Kernel
import proofs.«178942_j35579509080730_1_alg».proof.Proof.Gen.Kernel.Frame
import proofs.«178942_j35579509080730_1_alg».proof.Proof.Gen.KernelIdeal
import proofs.«178942_j35579509080730_1_alg».proof.Proof.Gen.KernelIdeal.Frame
import proofs.«178942_j35579509080730_1_alg».proof.Proof.Gen.KernelIdeal.Value
import proofs.«178942_j35579509080730_1_alg».proof.Proof.Gen.ReferenceIdeal
import proofs.«178942_j35579509080730_1_alg».proof.Proof.Gen.ReferenceIdeal.Run
import proofs.«178942_j35579509080730_1_alg».proof.Proof.Gen.ReferenceIdeal.Read
import proofs.«178942_j35579509080730_1_alg».proof.Proof.Gen.Pre_finite_inputs
import proofs.«178942_j35579509080730_1_alg».proof.Proof.HeadSpec
import proofs.«178942_j35579509080730_1_alg».proof.Proof.RefHead
import proofs.«178942_j35579509080730_1_alg».proof.Proof.KerBlocks
import proofs.«178942_j35579509080730_1_alg».proof.Proof.SamePrefix
import Idealize.ShloMosaic.Adequacy
import Idealize.ShloMosaic.Init

noncomputable section

namespace Cert.Proof

open Idealize.ShloMosaic Idealize.SL.Sem Cert.HeadSpec

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ,
    fun m ρ _ => (θ_run Cert.ReferenceIdeal.defs _ _).mono (fun _ h c => (h c).2) (Cert.ReferenceIdeal.Value.run (F := Ideal) m ρ),
    trivial, ?_⟩
  -- both runs end with the head of the aggregated features, the weights and the bias
  intro m ρ m' ρ' _ hagree
  refine ⟨fun c => head (Cert.KerBlocks.feats m c)
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KerBlocks.run_head m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.RefHead.result_is_head,
    (hagree c).1, (hagree c).2.1, (hagree c).2.2.1, (hagree c).2.2.2.1, (hagree c).2.2.2.2,
    ← Cert.SamePrefix.feats_eq m c]⟩

end Cert.Proof

end
